-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x2048 : Shape := ⟨2, ![11008, 2048]⟩
abbrev S11008x32 : Shape := ⟨2, ![11008, 32]⟩
abbrev S4096 : Shape := ⟨1, ![4096]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg5 : FVec F S11008 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S11008 .f32 := Host.absf main_arg5
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S8192x4096 .f32) (main_arg1 : IVec S11008x2048 32) (main_arg2 : FVec F S11008x32 .f32) (main_arg3 : FVec F S11008x32 .f32) (main_arg4 : FVec F S4096 .f32) (main_arg5 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_v13 main_v16
-- ==== Kernel.lean ====
abbrev S8192x4096 : Shape := ⟨2, ![8192, 4096]⟩
abbrev S11008x2048 : Shape := ⟨2, ![11008, 2048]⟩
abbrev S11008x32 : Shape := ⟨2, ![11008, 32]⟩
abbrev S4096 : Shape := ⟨1, ![4096]⟩
abbrev S11008 : Shape := ⟨1, ![11008]⟩
abbrev S1x4096 : Shape := ⟨2, ![1, 4096]⟩
abbrev S8192x1x2048x2 : Shape := ⟨4, ![8192, 1, 2048, 2]⟩
abbrev S8192x1x2x2048 : Shape := ⟨4, ![8192, 1, 2, 2048]⟩
abbrev S1x11008 : Shape := ⟨2, ![1, 11008]⟩
abbrev S8192x11008 : Shape := ⟨2, ![8192, 11008]⟩
abbrev S1024x4096 : Shape := ⟨2, ![1024, 4096]⟩
abbrev S256x2048 : Shape := ⟨2, ![256, 2048]⟩
abbrev S256x32 : Shape := ⟨2, ![256, 32]⟩
abbrev S1x256 : Shape := ⟨2, ![1, 256]⟩
abbrev S1024x256 : Shape := ⟨2, ![1024, 256]⟩
abbrev S256x4096 : Shape := ⟨2, ![256, 4096]⟩
abbrev S256x32x1 : Shape := ⟨3, ![256, 32, 1]⟩
abbrev S256x32x64 : Shape := ⟨3, ![256, 32, 64]⟩

abbrev nBuf : Space → Nat
  | .hbm => 16
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S4096, .f32⟩
  | .hbm, ⟨5, _⟩ => ⟨S11008, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | .hbm, ⟨10, _⟩ => ⟨S8192x1x2048x2, .bf16⟩
  | .hbm, ⟨11, _⟩ => ⟨S8192x1x2x2048, .bf16⟩
  | .hbm, ⟨12, _⟩ => ⟨S8192x4096, .bf16⟩
  | .hbm, ⟨13, _⟩ => ⟨S11008x32, .f32⟩
  | .hbm, ⟨14, _⟩ => ⟨S1x11008, .f32⟩
  | .hbm, ⟨15, _⟩ => ⟨S8192x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x2048, .i32⟩
  | .local _ .vmem, ⟨3, _⟩ => ⟨S256x2048, .i32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bitsLt_bf16_f32 : FTy.bits .bf16 < FTy.bits .f32
  shapeCasts_S8192x4096_S8192x1x2048x2 : S8192x4096.ShapeCasts S8192x1x2048x2
  transposes_S8192x1x2048x2_S8192x1x2x2048_0_1_3_2 : S8192x1x2048x2.Transposes [0, 1, 3, 2] S8192x1x2x2048
  shapeCasts_S8192x1x2x2048_S8192x4096 : S8192x1x2x2048.ShapeCasts S8192x4096
  shapeCasts_S11008_S1x11008 : S11008.ShapeCasts S1x11008
  inb_S256x2048_S256x2048_0_0 : ∀ a, (![0, 0] : Fin 2 → Nat) a + S256x2048.size a ≤ S256x2048.size a
  h_S256x2048 : 0 < S256x2048.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x32_S256x32x1 : S256x32.ShapeCasts S256x32x1
  shapeCasts_S256x32x1_S256x32x1 : S256x32x1.ShapeCasts S256x32x1
  broadcasts_S256x32x1_S256x32x64 : S256x32x1.Broadcasts S256x32x64
  shapeCasts_S256x32x64_S256x2048 : S256x32x64.ShapeCasts S256x2048
  inb_S256x4096_S256x2048_0_0 : ∀ a, (![0, 0] : Fin 2 → Nat) a + S256x2048.size a ≤ S256x4096.size a
  shapeCasts_S256x2048_S256x2048 : S256x2048.ShapeCasts S256x2048
  packedbf16_S256x4096_S256x2048_0_0 : (Rect.unit (s := S256x4096) ![0, 0] S256x2048.size inb_S256x4096_S256x2048_0_0).PackedRows (EltTy.packing .bf16)
  inb_S256x4096_S256x2048_0_2048 : ∀ a, (![0, 2048] : Fin 2 → Nat) a + S256x2048.size a ≤ S256x4096.size a
  packedbf16_S256x4096_S256x2048_0_2048 : (Rect.unit (s := S256x4096) ![0, 2048] S256x2048.size inb_S256x4096_S256x2048_0_2048).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11008x2048.size a
  hwx0_1 : ∀ i : grid0.Coords, EltTy.bits .i32 = 32 ∨ (Rect.block (s := S11008x2048) S256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .f32 = 32 ∨ (Rect.block (s := S11008x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .f32 = 32 ∨ (Rect.block (s := S8192x11008) S1024x256.size (cc0_transform_5 i) (hinb0_5 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v6) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S11008x2048 : Shape := ⟨2, ![11008, 2048]⟩
abbrev S11008x32 : Shape := ⟨2, ![11008, 32]⟩
abbrev S4096 : Shape := ⟨1, ![4096]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x32x128 : Shape := ⟨3, ![11008, 32, 128]⟩
abbrev S11008x32x1 : Shape := ⟨3, ![11008, 32, 1]⟩
abbrev S1x4096 : Shape := ⟨2, ![1, 4096]⟩
abbrev S8192x11008 : Shape := ⟨2, ![8192, 11008]⟩
abbrev S1x11008 : Shape := ⟨2, ![1, 11008]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S4096, .f32⟩
  | .hbm, ⟨5, _⟩ => ⟨S11008, .f32⟩
  | .hbm, ⟨6, _⟩ => ⟨S_, .i32⟩
  | .hbm, ⟨7, _⟩ => ⟨S11008x2048, .i32⟩
  | .hbm, ⟨8, _⟩ => ⟨S11008x2048, .i32⟩
  | .hbm, ⟨9, _⟩ => ⟨S_, .i32⟩
  | .hbm, ⟨10, _⟩ => ⟨S11008x2048, .i32⟩
  | .hbm, ⟨11, _⟩ => ⟨S11008x2048, .i32⟩
  | .hbm, ⟨12, _⟩ => ⟨S_, .i32⟩
  | .hbm, ⟨13, _⟩ => ⟨S11008x2048, .i32⟩
  | .hbm, ⟨14, _⟩ => ⟨S11008x2048, .i32⟩
  | .hbm, ⟨15, _⟩ => ⟨S11008x2048x1, .i32⟩
  | .hbm, ⟨16, _⟩ => ⟨S11008x2048x1, .i32⟩
  | .hbm, ⟨17, _⟩ => ⟨S11008x2048x2, .i32⟩
  | .hbm, ⟨18, _⟩ => ⟨S11008x4096, .i32⟩
  | .hbm, ⟨19, _⟩ => ⟨S11008x4096, .f32⟩
  | .hbm, ⟨20, _⟩ => ⟨S11008x32x128, .f32⟩
  | .hbm, ⟨21, _⟩ => ⟨S11008x32x1, .f32⟩
  | .hbm, ⟨22, _⟩ => ⟨S11008x32x128, .f32⟩
  | .hbm, ⟨23, _⟩ => ⟨S11008x32x128, .f32⟩
  | .hbm, ⟨24, _⟩ => ⟨S11008x32x1, .f32⟩
  | .hbm, ⟨25, _⟩ => ⟨S11008x32x128, .f32⟩
  | .hbm, ⟨26, _⟩ => ⟨S11008x32x128, .f32⟩
  | .hbm, ⟨27, _⟩ => ⟨S11008x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x11008, .f32⟩
  | .hbm, ⟨32, _⟩ => ⟨S1x11008, .f32⟩
  | .hbm, ⟨33, _⟩ => ⟨S8192x11008, .f32⟩
  | .hbm, ⟨34, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S11008x4096_S8192x11008_1_1_0_0_n_n_wf : DotDims.WF S8192x4096 S11008x4096 S8192x11008 [1] [1] [0] [0] [] []

variable [Facts₀]

def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.Spec.lean ====
/-
  The mathematics of the int4 dequantize-and-multiply, with no program in sight.

  A packed word holds two 4-bit codes: its low nibble is column 2q of a weight row, its high nibble column 2q+1.
  Column k of row n belongs to group k / 128, and its weight is (code − zero) · scale of that group.  The result is
  out[m, n] = Σ_k (x[m, k] · s2[k]) · W[n, k] + bias[n]                                              (the form G).

  The other arrangement lists the contraction axis as "all low nibbles, then all high nibbles": position k stands for
  column σ k = 2 · (k mod 2048) + k / 2048, its group is (k mod 2048) / 64, and the weight is spelled
  code · scale − (zero · scale)                                                                     (the form K).

  Over the extended reals the two agree when scale and zero are real numbers: σ is a permutation of the 4096
  columns, so the sum is re-indexed, and (c − z) · s = c · s − z · s holds for reals (it fails at infinities, which
  is where finiteness of the inputs is used).
-/
import Idealize.ShloMosaic.PureOps.Ideal
import Idealize.ShloMosaic.Lib.ValueIdx

noncomputable section

namespace Cert.NibbleMatmul

open Idealize.ShloMosaic Idealize.ShloMosaic.ValueIdx

/-! ## Shapes -/

abbrev SX : Shape := ⟨2, ![8192, 4096]⟩
abbrev SW : Shape := ⟨2, ![11008, 2048]⟩
abbrev SG : Shape := ⟨2, ![11008, 32]⟩
abbrev SK : Shape := ⟨1, ![4096]⟩
abbrev SN : Shape := ⟨1, ![11008]⟩
abbrev SO : Shape := ⟨2, ![8192, 11008]⟩

/-! ## The two codes of a packed word -/

/-- The low nibble of a word, as a real. -/
def loNib (w : BitVec 32) : EReal := FloatOps.sitofp (F := Ideal) .f32 (IntOp.andi w 15#32)

/-- The next nibble of a word (the word shifted right by four, masked), as a real. -/
def hiNib (w : BitVec 32) : EReal := FloatOps.sitofp (F := Ideal) .f32 (IntOp.andi (IntOp.shrsi .vector w 4#32) 15#32)

theorem loNib_real (w : BitVec 32) : ∃ r : ℝ, loNib w = (r : EReal) := ⟨_, rfl⟩
theorem hiNib_real (w : BitVec 32) : ∃ r : ℝ, hiNib w = (r : EReal) := ⟨_, rfl⟩

/-- A shift by four is below the width, so the host's arithmetic shift is the vector unit's. -/
theorem shrsi_host_four (w : BitVec 32) : IntOp.shrsi .host w 4#32 = IntOp.shrsi .vector w 4#32 := by
  unfold IntOp.shrsi
  rw [if_pos (by decide), if_pos (by decide)]

/-! ## Columns, bytes and groups -/

/-- The packed byte that holds column k. -/
def byteOfCol (k : Fin 4096) : Fin 2048 := ⟨k.val / 2, by have := k.isLt; omega⟩
/-- The group of column k. -/
def grpOfCol (k : Fin 4096) : Fin 32 := ⟨k.val / 128, by have := k.isLt; omega⟩
/-- The code in column k of row n: even columns are low nibbles, odd columns high nibbles. -/
def codeOfCol (wq : IVec SW 32) (n : Fin 11008) (k : Fin 4096) : EReal :=
  if k.val % 2 = 0 then loNib (wq (ix2 n (byteOfCol k))) else hiNib (wq (ix2 n (byteOfCol k)))

/-- Position k of the "low nibbles then high nibbles" order: its byte, -/
def byteOfPos (k : Fin 4096) : Fin 2048 := ⟨k.val % 2048, Nat.mod_lt _ (by decide)⟩
/-- its group, -/
def grpOfPos (k : Fin 4096) : Fin 32 := ⟨k.val % 2048 / 64, by have := Nat.mod_lt k.val (show 0 < 2048 by decide); omega⟩
/-- the column it stands for, -/
def colOfPos (k : Fin 4096) : Fin 4096 := ⟨2 * (k.val % 2048) + k.val / 2048, by have := k.isLt; omega⟩
/-- and its code: the first 2048 positions are low nibbles, the last 2048 high nibbles. -/
def codeOfPos {R : Nat} (wq : IVec (⟨2, ![R, 2048]⟩ : Shape) 32) (n : Fin R) (k : Fin 4096) : EReal :=
  if k.val < 2048 then loNib (wq (ix2 n (byteOfPos k))) else hiNib (wq (ix2 n (byteOfPos k)))

/-- Positions and columns are in bijection. -/
def posEquiv : Fin 4096 ≃ Fin 4096 where
  toFun := colOfPos
  invFun j := ⟨(j.val % 2) * 2048 + j.val / 2, by have := j.isLt; omega⟩
  left_inv k := Fin.ext (by have := k.isLt; show (2 * (k.val % 2048) + k.val / 2048) % 2 * 2048 + (2 * (k.val % 2048) + k.val / 2048) / 2 = k.val; omega)
  right_inv j := Fin.ext (by have := j.isLt; show 2 * (((j.val % 2) * 2048 + j.val / 2) % 2048) + ((j.val % 2) * 2048 + j.val / 2) / 2048 = j.val; omega)

theorem byteOfCol_colOfPos (k : Fin 4096) : byteOfCol (colOfPos k) = byteOfPos k :=
  Fin.ext (by have := k.isLt; show (2 * (k.val % 2048) + k.val / 2048) / 2 = k.val % 2048; omega)

theorem grpOfCol_colOfPos (k : Fin 4096) : grpOfCol (colOfPos k) = grpOfPos k :=
  Fin.ext (by have := k.isLt; show (2 * (k.val % 2048) + k.val / 2048) / 128 = k.val % 2048 / 64; omega)

theorem codeOfCol_colOfPos (wq : IVec SW 32) (n : Fin 11008) (k : Fin 4096) :
    codeOfCol wq n (colOfPos k) = codeOfPos wq n k := by
  unfold codeOfCol codeOfPos
  rw [byteOfCol_colOfPos]
  have hk := k.isLt
  by_cases h : k.val < 2048
  · rw [if_pos h, if_pos (show (colOfPos k).val % 2 = 0 by show (2 * (k.val % 2048) + k.val / 2048) % 2 = 0; omega)]
  · rw [if_neg h, if_neg (show ¬(colOfPos k).val % 2 = 0 by show ¬(2 * (k.val % 2048) + k.val / 2048) % 2 = 0; omega)]

theorem codeOfPos_real {R : Nat} (wq : IVec (⟨2, ![R, 2048]⟩ : Shape) 32) (n : Fin R) (k : Fin 4096) : ∃ r : ℝ, codeOfPos wq n k = (r : EReal) := by
  unfold codeOfPos; split
  · exact loNib_real _
  · exact hiNib_real _

/-! ## The two forms of the result -/

/-- The result at (m, n), column by column: Σ_k (x · s2)[m, k] · ((code − zero) · scale)[n, k] + bias[n]. -/
def Gat (x : FVec Ideal SX .f32) (wq : IVec SW 32) (sc ze : FVec Ideal SG .f32) (s2 : FVec Ideal SK .f32)
    (b : FVec Ideal SN .f32) (m : Fin 8192) (n : Fin 11008) : EReal :=
  (∑ k : Fin 4096, (x (ix2 m k) * s2 (ix1 k))
      * ((codeOfCol wq n k - ze (ix2 n (grpOfCol k))) * sc (ix2 n (grpOfCol k))))
    + b (ix1 n)

/-- The result at (m, n), low nibbles first: Σ_k (x · s2)[m, σ k] · (code · scale − zero · scale) + bias[n]. -/
def Kat (x : FVec Ideal SX .f32) (wq : IVec SW 32) (sc ze : FVec Ideal SG .f32) (s2 : FVec Ideal SK .f32)
    (b : FVec Ideal SN .f32) (m : Fin 8192) (n : Fin 11008) : EReal :=
  (∑ k : Fin 4096, (x (ix2 m (colOfPos k)) * s2 (ix1 (colOfPos k)))
      * (codeOfPos wq n k * sc (ix2 n (grpOfPos k)) - ze (ix2 n (grpOfPos k)) * sc (ix2 n (grpOfPos k))))
    + b (ix1 n)

/-- The two forms as arrays. -/
def G (x : FVec Ideal SX .f32) (wq : IVec SW 32) (sc ze : FVec Ideal SG .f32) (s2 : FVec Ideal SK .f32)
    (b : FVec Ideal SN .f32) : FVec Ideal SO .f32 := fun i => Gat x wq sc ze s2 b (i 0) (i 1)
def K (x : FVec Ideal SX .f32) (wq : IVec SW 32) (sc ze : FVec Ideal SG .f32) (s2 : FVec Ideal SK .f32)
    (b : FVec Ideal SN .f32) : FVec Ideal SO .f32 := fun i => Kat x wq sc ze s2 b (i 0) (i 1)

/-- For reals, (c − z) · s = c · s − z · s. -/
theorem sub_mul_real (c z s : ℝ) : ((c : EReal) - (z : EReal)) * (s : EReal) = (c : EReal) * (s : EReal) - (z : EReal) * (s : EReal) := by
  rw [← EReal.coe_sub, ← EReal.coe_mul, ← EReal.coe_mul, ← EReal.coe_mul, ← EReal.coe_sub, sub_mul]

/-- With real scales and zeros the two forms agree at every (m, n): the sum is re-indexed along the bijection of
    positions and columns, and each weight is distributed. -/
theorem Kat_eq_Gat (x : FVec Ideal SX .f32) (wq : IVec SW 32) (sc ze : FVec Ideal SG .f32) (s2 : FVec Ideal SK .f32)
    (b : FVec Ideal SN .f32) (hsc : ∀ j, ∃ r : ℝ, sc j = (r : EReal)) (hze : ∀ j, ∃ r : ℝ, ze j = (r : EReal))
    (m : Fin 8192) (n : Fin 11008) :
    Kat x wq sc ze s2 b m n = Gat x wq sc ze s2 b m n := by
  unfold Kat Gat
  congr 1
  rw [← Equiv.sum_comp posEquiv (fun k : Fin 4096 => (x (ix2 m k) * s2 (ix1 k))
      * ((codeOfCol wq n k - ze (ix2 n (grpOfCol k))) * sc (ix2 n (grpOfCol k))))]
  refine Finset.sum_congr rfl fun k _ => ?_
  show _ = (x (ix2 m (colOfPos k)) * s2 (ix1 (colOfPos k)))
      * ((codeOfCol wq n (colOfPos k) - ze (ix2 n (grpOfCol (colOfPos k)))) * sc (ix2 n (grpOfCol (colOfPos k))))
  rw [codeOfCol_colOfPos, grpOfCol_colOfPos]
  obtain ⟨cr, hc⟩ := codeOfPos_real wq n k
  obtain ⟨sr, hs⟩ := hsc (ix2 n (grpOfPos k))
  obtain ⟨zr, hz⟩ := hze (ix2 n (grpOfPos k))
  rw [hc, hs, hz, sub_mul_real]

theorem K_eq_G (x : FVec Ideal SX .f32) (wq : IVec SW 32) (sc ze : FVec Ideal SG .f32) (s2 : FVec Ideal SK .f32)
    (b : FVec Ideal SN .f32) (hsc : ∀ j, ∃ r : ℝ, sc j = (r : EReal)) (hze : ∀ j, ∃ r : ℝ, ze j = (r : EReal)) :
    K x wq sc ze s2 b = G x wq sc ze s2 b :=
  funext fun i => Kat_eq_Gat x wq sc ze s2 b hsc hze (i 0) (i 1)

end Cert.NibbleMatmul

end
-- ==== Proof.Finite.lean ====
/-
  What the precondition gives: every entry of scale and of zero is a real number.

  The precondition is the conjunction, input by input, of "all entries satisfy |x| < +∞".  A conjunction of bits that
  is 1 has every conjunct 1; an "all" that is 1 has every entry's comparison 1; and an extended real whose absolute
  value max x (−x) lies below +∞ is neither +∞ nor −∞, so it is a real.
-/
import proofs.«425460_j26645977104586_3_alg».proof.Pre_finite_inputs
import Idealize.ShloMosaic.Lib.ReduceAll
import Idealize.ShloMosaic.Lib.ValueIdx
import Idealize.ShloMosaic.PureOps.Ideal

noncomputable section

open Idealize.ShloMosaic

namespace Cert.Pre_finite_inputs.Finite

open Cert.Pre_finite_inputs

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    have : Ideal.cmp .olt (max x (-x)) ⊤ = 0#1 := by
      unfold Ideal.cmp
      simp [hn]
    rw [this] at h
    exact absurd h (by decide)
  induction x using EReal.rec with
  | bot => exact absurd hlt (by simp)
  | coe r => exact ⟨r, rfl⟩
  | top => exact absurd hlt (by simp)

variable [Facts]

/-- Under the precondition, every entry of the third and of the fourth input (scale and zero) is a real. -/
theorem real_entries (a0 : FVec Ideal S8192x4096 .f32) (a1 : IVec S11008x2048 32) (a2 a3 : FVec Ideal S11008x32 .f32)
    (a4 : FVec Ideal S4096 .f32) (a5 : FVec Ideal S11008 .f32)
    (h : fn (F := Ideal) a0 a1 a2 a3 a4 a5 = fun _ => 1#1) :
    (∀ j, ∃ r : ℝ, a2 j = (r : EReal)) ∧ (∀ j, ∃ r : ℝ, a3 j = (r : EReal)) := by
  have h0 := congrFun h ValueIdx.ix0
  dsimp only [fn, fn_part1] at h0
  obtain ⟨h18, -⟩ := IntOp.andi_eq_one.mp h0
  obtain ⟨h13, -⟩ := IntOp.andi_eq_one.mp h18
  obtain ⟨h8, h12⟩ := IntOp.andi_eq_one.mp h13
  obtain ⟨-, h7⟩ := IntOp.andi_eq_one.mp h8
  exact ⟨fun j => real_of_abs_lt_inf (a2 j) (Host.reduce_andi_all _ _ _ _ _ h7 j),
         fun j => real_of_abs_lt_inf (a3 j) (Host.reduce_andi_all _ _ _ _ _ h12 j)⟩

end Cert.Pre_finite_inputs.Finite

end
-- ==== Proof.RefValue.lean ====
/-
  The reference's result, read at an index, is the column-by-column form G.

  The reference unpacks each word into its two nibbles, stacks them on a new last axis and flattens, so column k of
  row n holds the low nibble of byte k / 2 when k is even and its high nibble when k is odd; it regroups the 4096
  columns as 32 groups of 128, subtracts the group's zero and multiplies by the group's scale; and it contracts the
  columns against x · s2 and adds the bias.
-/
import proofs.«425460_j26645977104586_3_alg».proof.Proof.Gen.ReferenceIdeal.Read
import proofs.«425460_j26645977104586_3_alg».proof.Proof.Spec
import Idealize.ShloMosaic.Lib.Pipeline.Value
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read Cert.NibbleMatmul

/-- Two arrays with a trailing unit axis, joined along it: entry (n, q, r) is the first array's (n, q, 0) when r = 0
    and the second's when r = 1. -/
theorem stack_apply (a b : IVec S11008x2048x1 32) (n : Fin 11008) (q : Fin 2048) (r : Fin 2) :
    concatenate S11008x2048x2 2 [⟨S11008x2048x1, a⟩, ⟨S11008x2048x1, b⟩] concatenates_S11008x2048x1_S11008x2048x1_S11008x2048x2_d2 (ix3 n q r)
      = if r.val = 0 then a (ix3 n q (0 : Fin 1)) else b (ix3 n q (0 : Fin 1)) := by
  by_cases hr : r.val = 0
  · obtain rfl : r = (0 : Fin 2) := Fin.ext hr
    rw [if_pos hr]
    exact concatenate_pair_apply_left (t := S11008x2048x2) 2 a b concatenates_S11008x2048x1_S11008x2048x1_S11008x2048x2_d2
      (ix3 n q (0 : Fin 2)) rfl (ix3 n q (0 : Fin 1)) (fun d => by
        match d with
        | ⟨0, _⟩ => rfl
        | ⟨1, _⟩ => rfl
        | ⟨2, _⟩ => rfl)
  · obtain rfl : r = (1 : Fin 2) := Fin.ext (by have := r.isLt; omega)
    rw [if_neg hr]
    exact concatenate_pair_apply_right (t := S11008x2048x2) 2 a b concatenates_S11008x2048x1_S11008x2048x1_S11008x2048x2_d2
      (ix3 n q (1 : Fin 2)) rfl rfl (ix3 n q (0 : Fin 1)) (fun d hd => by
        match d with
        | ⟨0, _⟩ => rfl
        | ⟨1, _⟩ => rfl
        | ⟨2, _⟩ => exact absurd rfl hd) (by rfl)

/-- The integer code the reference places in column k of row n. -/
theorem code_apply (x1 : IVec S11008x2048 32) (n : Fin 11008) (k : Fin 4096) :
    (FloatOps.sitofp (F := Ideal) .f32 (val_main_v9 (F := Ideal) x1 (ix2 n k)) : EReal) = codeOfCol x1 n k := by
  have hk := k.isLt
  have hn := n.isLt
  have e9 : idx_main_v9 (ix2 n k) = ix3 n (byteOfCol k) (⟨k.val % 2, Nat.mod_lt _ (by decide)⟩ : Fin 2) := funext fun a => Fin.ext (by
    match a with
    | ⟨0, _⟩ => show (n.val * 4096 + k.val) / 4096 = n.val; omega
    | ⟨1, _⟩ => show (n.val * 4096 + k.val) / 2 % 2048 = k.val / 2; omega
    | ⟨2, _⟩ => show (n.val * 4096 + k.val) % 2 = k.val % 2; omega)
  rw [val_main_v9_apply, e9]
  unfold val_main_v8
  rw [stack_apply]
  have e6 : idx_main_v6 (ix3 n (byteOfCol k) (0 : Fin 1)) = ix2 n (byteOfCol k) := funext fun a => Fin.ext (by
    match a with
    | ⟨0, _⟩ => rfl
    | ⟨1, _⟩ => rfl)
  have e7 : idx_main_v7 (ix3 n (byteOfCol k) (0 : Fin 1)) = ix2 n (byteOfCol k) := funext fun a => Fin.ext (by
    match a with
    | ⟨0, _⟩ => rfl
    | ⟨1, _⟩ => rfl)
  unfold codeOfCol
  by_cases h : k.val % 2 = 0
  · rw [if_pos h, if_pos h, val_main_v6_apply, e6, val_main_v1_apply, val_main_v0_apply, val_main_c_apply]
    rfl
  · rw [if_neg h, if_neg h, val_main_v7_apply, e7, val_main_v5_apply, val_main_v3_apply, val_main_v2_apply, val_main_c_0_apply,
      val_main_v4_apply, val_main_c_1_apply, shrsi_host_four]
    rfl

/-- The reference's dequantized weight in column k of row n. -/
theorem weight_apply (x1 : IVec S11008x2048 32) (x2 x3 : FVec Ideal S11008x32 .f32) (n : Fin 11008) (k : Fin 4096) :
    val_main_v18 (F := Ideal) x1 x2 x3 (ix2 n k)
      = (codeOfCol x1 n k - x3 (ix2 n (grpOfCol k))) * x2 (ix2 n (grpOfCol k)) := by
  have hk := k.isLt
  have hn := n.isLt
  have e18 : idx_main_v18 (ix2 n k) = ix3 n (grpOfCol k) (⟨k.val % 128, Nat.mod_lt _ (by decide)⟩ : Fin 128) := funext fun a => Fin.ext (by
    match a with
    | ⟨0, _⟩ => show (n.val * 4096 + k.val) / 4096 = n.val; omega
    | ⟨1, _⟩ => show (n.val * 4096 + k.val) / 128 % 32 = k.val / 128; omega
    | ⟨2, _⟩ => show (n.val * 4096 + k.val) % 128 = k.val % 128; omega)
  have e11 : idx_main_v11 (ix3 n (grpOfCol k) (⟨k.val % 128, Nat.mod_lt _ (by decide)⟩ : Fin 128)) = ix2 n k := funext fun a => Fin.ext (by
    match a with
    | ⟨0, _⟩ => show ((n.val * 32 + k.val / 128) * 128 + k.val % 128) / 4096 = n.val; omega
    | ⟨1, _⟩ => show ((n.val * 32 + k.val / 128) * 128 + k.val % 128) % 4096 = k.val; omega)
  have e13 : idx_main_v12 (idx_main_v13 (ix3 n (grpOfCol k) (⟨k.val % 128, Nat.mod_lt _ (by decide)⟩ : Fin 128))) = ix2 n (grpOfCol k) := funext fun a => Fin.ext (by
    match a with
    | ⟨0, _⟩ => rfl
    | ⟨1, _⟩ => rfl)
  have e16 : idx_main_v15 (idx_main_v16 (ix3 n (grpOfCol k) (⟨k.val % 128, Nat.mod_lt _ (by decide)⟩ : Fin 128))) = ix2 n (grpOfCol k) := funext fun a => Fin.ext (by
    match a with
    | ⟨0, _⟩ => rfl
    | ⟨1, _⟩ => rfl)
  rw [val_main_v18_apply, e18, val_main_v17_apply, val_main_v14_apply, val_main_v11_apply, e11, val_main_v10_apply, code_apply,
    val_main_v13_apply, val_main_v12_apply, e13, val_main_v16_apply, val_main_v15_apply, e16]
  rfl

/-- The reference's scaled activation at (m, k). -/
theorem act_apply (x0 : FVec Ideal S8192x4096 .f32) (x4 : FVec Ideal S4096 .f32) (m : Fin 8192) (k : Fin 4096) :
    val_main_v21 (F := Ideal) x0 x4 (ix2 m k) = x0 (ix2 m k) * x4 (ix1 k) := by
  have e : idx_main_v19 (idx_main_v20 (ix2 m k)) = ix1 k := funext fun a => Fin.ext (by
    match a with
    | ⟨0, _⟩ => rfl)
  rw [val_main_v21_apply, val_main_v20_apply, val_main_v19_apply, e]
  rfl

/-- The reference's result is G of the arguments. -/
theorem result_eq (x0 : FVec Ideal S8192x4096 .f32) (x1 : IVec S11008x2048 32) (x2 x3 : FVec Ideal S11008x32 .f32)
    (x4 : FVec Ideal S4096 .f32) (x5 : FVec Ideal S11008 .f32) :
    val_main_v25 (F := Ideal) x0 x1 x2 x3 x4 x5 = G x0 x1 x2 x3 x4 x5 := by
  funext i
  obtain ⟨m, n, rfl⟩ : ∃ (m : Fin 8192) (n : Fin 11008), i = ix2 m n := ⟨i 0, i 1, eq_ix2 i⟩
  show _ = Gat x0 x1 x2 x3 x4 x5 m n
  unfold Gat
  have eb : idx_main_v23 (idx_main_v24 (ix2 m n)) = ix1 n := funext fun a => Fin.ext (by
    match a with
    | ⟨0, _⟩ => rfl)
  rw [val_main_v25_apply, val_main_v22_apply, val_main_v24_apply, val_main_v23_apply, eb]
  refine congrArg (· + x5 (ix1 n)) (Finset.sum_congr rfl fun k _ => ?_)
  have el : lidx_main_v22 (ix2 m n) k = ix2 m k := funext fun a => Fin.ext (by
    match a with
    | ⟨0, _⟩ => rfl
    | ⟨1, _⟩ => rfl)
  have er : ridx_main_v22 (ix2 m n) k = ix2 n k := funext fun a => Fin.ext (by
    match a with
    | ⟨0, _⟩ => rfl
    | ⟨1, _⟩ => rfl)
  rw [el, er, act_apply, weight_apply]

end Cert.ReferenceIdeal.RefValue

end
-- ==== Proof.KernelPiece.lean ====
/-
  What one grid point's body leaves in the output block, as a pure function of the blocks it loads.

  The body dequantizes the packed weight block into a scratch buffer in two half-width stores (low nibbles into
  columns [0, 2048), high nibbles into columns [2048, 4096)), reads the whole scratch back, multiplies the activation
  block by it (contracting the 4096 columns), adds the bias row and stores the block once.  So the output block is
  bias-add ∘ matmul of the activation block and "the scratch after the two stores", the latter being the two
  dequantized halves laid side by side.
-/
import proofs.«425460_j26645977104586_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The scratch after the two half-width stores: the high-nibble half (stored last) over the low-nibble half. -/
def scratchAfter (x1 : Vec F S256x2048 .i32) (x2 x3 : Vec F S256x32 .f32) : Vec F S256x4096 .bf16 :=
  View.canon
    [(⟨Rect.unit (s := S256x4096) ![0, 2048] S256x2048.size inb_S256x4096_S256x2048_0_2048, k0_pay5 x1 x2 x3⟩ : View.Piece (Elt F) S256x4096 .bf16),
     (⟨Rect.unit (s := S256x4096) ![0, 0] S256x2048.size inb_S256x4096_S256x2048_0_0, k0_pay4 x1 x2 x3⟩ : View.Piece (Elt F) S256x4096 .bf16)]

/-- The output block the body leaves: the product of the activation block with the scratch, plus the bias row. -/
theorem out_eq (c : Dev nD) (i : grid0.Coords) (arg2 : Memref sig .tc .vmem S1024x4096 .bf16) (harg2 : arg2.IsWhole) (arg3 : Memref sig .tc .vmem S256x2048 .i32) (harg3 : arg3.IsWhole) (arg4 : Memref sig .tc .vmem S256x32 .f32) (harg4 : arg4.IsWhole) (arg5 : Memref sig .tc .vmem S256x32 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S256x4096 .bf16) (harg8 : arg8.IsWhole)
    (x0 : Vec F S1024x4096 .bf16) (x1 : Vec F S256x2048 .i32) (x2 : Vec F S256x32 .f32) (x3 : Vec F S256x32 .f32) (x4 : Vec F S1x256 .f32) :
    out0_A_5 c i arg2 harg2 arg3 harg3 arg4 harg4 arg5 harg5 arg6 harg6 arg7 harg7 arg8 harg8 x0 x1 x2 x3 x4
      = k0_pay1 (k0_pay6 x0 (scratchAfter x1 x2 x3)) x4 := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    View.ld_unit_zero (S := S1024x4096) hz, View.ld_unit_zero (S := S256x2048) hz, View.ld_unit_zero (S := S256x32) hz,
    View.ld_unit_zero (S := S1x256) hz, View.readCov_eq_canon']
  refine congrArg (fun W => k0_pay1 (k0_pay6 x0 W) x4) ?_
  exact View.ld_unit_zero (S := S256x4096) hz inb_S256x4096_S256x4096_0_0 (scratchAfter x1 x2 x3)

end Cert.KernelIdeal.Body

end
-- ==== Proof.KernelBlock.lean ====
/-
  The output block of one grid point, index by index, over the extended reals.

  Entry (p, q) of the block is  Σ_k xb[p, k] · S[q, k] + bias[0, q],  where S is the scratch after the two stores:
  for k < 2048 it holds  lo(w[q, k]) · s[q, k / 64] − zs[q, k / 64]  and for k ≥ 2048 the same with the high nibble of
  w[q, k − 2048] and the group (k − 2048) / 64.  The per-group scale and offset reach column b of the half-width
  tiles through a [256, 32] → [256, 32, 1] → [256, 32, 64] → [256, 2048] cast–broadcast–cast, which reads group b / 64.
-/
import proofs.«425460_j26645977104586_3_alg».proof.Proof.KernelPiece
import proofs.«425460_j26645977104586_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx

namespace Cert.KernelIdeal.Body

open Cert.KernelIdeal Cert.KernelIdeal.Gen Cert.NibbleMatmul

variable {F : FTy → Type} [FloatOps F]

/-- The group of column b of a half-width tile. -/
def grpOfByte (b : Fin 2048) : Fin 32 := ⟨b.val / 64, by have := b.isLt; omega⟩

/-- A per-group quantity spread over the 64 bytes of each group: column b reads group b / 64. -/
theorem spread_apply (f : (x : Vec F S256x32 .f32) → FVec F S256x32x1 .f32) (hf : ∀ x (q : Fin 256) (g : Fin 32), f x (ix3 q g (0 : Fin 1)) = x (ix2 q g))
    (x : Vec F S256x32 .f32) (q : Fin 256) (b : Fin 2048) :
    shapeCast S256x2048 (broadcastTo S256x32x64 (f x) broadcasts_S256x32x1_S256x32x64) shapeCasts_S256x32x64_S256x2048 (ix2 q b)
      = x (ix2 q (grpOfByte b)) := by
  have hb := b.isLt
  have hq := q.isLt
  rw [shapeCast_apply _ _ (ix2 q b) (ix3 q (grpOfByte b) (⟨b.val % 64, Nat.mod_lt _ (by decide)⟩ : Fin 64)) (by
      rw [Shape.rowMajor_val_three, Shape.rowMajor_val_two]
      show (q.val * 32 + b.val / 64) * 64 + b.val % 64 = q.val * 2048 + b.val
      omega),
    broadcastTo_apply _ _ (ix3 q (grpOfByte b) (⟨b.val % 64, Nat.mod_lt _ (by decide)⟩ : Fin 64)) (ix3 q (grpOfByte b) (0 : Fin 1)) (fun a => by
      match a with
      | ⟨0, _⟩ => show q.val = if (256 : Nat) = 1 then 0 else q.val; rw [if_neg (by decide)]
      | ⟨1, _⟩ => show b.val / 64 = if (32 : Nat) = 1 then 0 else b.val / 64; rw [if_neg (by decide)]
      | ⟨2, _⟩ => show (0 : Nat) = if (1 : Nat) = 1 then 0 else b.val % 64; rw [if_pos rfl]),
    hf]

/-- A [256, 32] array with a trailing unit axis added, at (q, g, 0). -/
theorem addAxis_apply (x : Vec F S256x32 .f32) (q : Fin 256) (g : Fin 32) :
    shapeCast S256x32x1 x shapeCasts_S256x32_S256x32x1 (ix3 q g (0 : Fin 1)) = x (ix2 q g) :=
  shapeCast_apply _ _ _ _ (by
    rw [Shape.rowMajor_val_two, Shape.rowMajor_val_three]
    show q.val * 32 + g.val = (q.val * 32 + g.val) * 1 + 0
    omega)

/-- The expanded scale: column b of row q reads the scale of group b / 64. -/
theorem scaleExp_apply (x : Vec F S256x32 .f32) (q : Fin 256) (b : Fin 2048) :
    k0_pay2 x (ix2 q b) = x (ix2 q (grpOfByte b)) := by
  unfold k0_pay2
  exact spread_apply (fun x => shapeCast S256x32x1 (shapeCast S256x32x1 x shapeCasts_S256x32_S256x32x1) shapeCasts_S256x32x1_S256x32x1)
    (fun x q g => by rw [shapeCast_self]; exact addAxis_apply x q g) x q b

/-- The expanded offset: column b of row q reads the offset of group b / 64. -/
theorem offsetExp_apply (x : Vec F S256x32 .f32) (q : Fin 256) (b : Fin 2048) :
    k0_pay3 x (ix2 q b) = x (ix2 q (grpOfByte b)) := by
  unfold k0_pay3
  exact spread_apply (fun x => shapeCast S256x32x1 (shapeCast S256x32x1 (shapeCast S256x32 x shapeCasts_S256x32_S256x32) shapeCasts_S256x32_S256x32x1) shapeCasts_S256x32x1_S256x32x1)
    (fun x q g => by rw [shapeCast_self, shapeCast_self]; exact addAxis_apply x q g) x q b

/-- The low-nibble tile at (q, b). -/
theorem lowTile_apply (x1 : Vec Ideal S256x2048 .i32) (x2 x3 : Vec Ideal S256x32 .f32) (q : Fin 256) (b : Fin 2048) :
    k0_pay4 (F := Ideal) x1 x2 x3 (ix2 q b) = loNib (x1 (ix2 q b)) * x2 (ix2 q (grpOfByte b)) - x3 (ix2 q (grpOfByte b)) := by
  unfold k0_pay4
  rw [shapeCast_self]
  show loNib (x1 (ix2 q b)) * k0_pay2 x2 (ix2 q b) - k0_pay3 x3 (ix2 q b) = _
  rw [scaleExp_apply, offsetExp_apply]

/-- The high-nibble tile at (q, b). -/
theorem highTile_apply (x1 : Vec Ideal S256x2048 .i32) (x2 x3 : Vec Ideal S256x32 .f32) (q : Fin 256) (b : Fin 2048) :
    k0_pay5 (F := Ideal) x1 x2 x3 (ix2 q b) = hiNib (x1 (ix2 q b)) * x2 (ix2 q (grpOfByte b)) - x3 (ix2 q (grpOfByte b)) := by
  unfold k0_pay5
  rw [shapeCast_self]
  show hiNib (x1 (ix2 q b)) * k0_pay2 x2 (ix2 q b) - k0_pay3 x3 (ix2 q b) = _
  rw [scaleExp_apply, offsetExp_apply]

/-- Where entry (q, b) of a half-width tile stored at column offset 0 lands in the scratch. -/
theorem low_emb (q : Fin 256) (b : Fin 2048) (k : Fin 4096) (hk : k.val = b.val) :
    (Rect.unit (s := S256x4096) ![0, 0] S256x2048.size inb_S256x4096_S256x2048_0_0).emb (ix2 q b) = ix2 q k :=
  funext fun a => Fin.ext (by
    match a with
    | ⟨0, _⟩ => show 0 + 1 * q.val = q.val; omega
    | ⟨1, _⟩ => show 0 + 1 * b.val = k.val; omega)

/-- Where entry (q, b) of a half-width tile stored at column offset 2048 lands in the scratch. -/
theorem high_emb (q : Fin 256) (b : Fin 2048) (k : Fin 4096) (hk : k.val = 2048 + b.val) :
    (Rect.unit (s := S256x4096) ![0, 2048] S256x2048.size inb_S256x4096_S256x2048_0_2048).emb (ix2 q b) = ix2 q k :=
  funext fun a => Fin.ext (by
    match a with
    | ⟨0, _⟩ => show 0 + 1 * q.val = q.val; omega
    | ⟨1, _⟩ => show 2048 + 1 * b.val = k.val; omega)

/-- The two halves of the scratch do not meet. -/
theorem halves_disjoint : Disjoint (Rect.unit (s := S256x4096) ![0, 2048] S256x2048.size inb_S256x4096_S256x2048_0_2048).set
    (Rect.unit (s := S256x4096) ![0, 0] S256x2048.size inb_S256x4096_S256x2048_0_0).set :=
  Rect.unit_disjoint (1 : Fin 2) (Or.inr (by decide))

theorem low_mem (q : Fin 256) (b : Fin 2048) :
    (Rect.unit (s := S256x4096) ![0, 0] S256x2048.size inb_S256x4096_S256x2048_0_0).emb (ix2 q b)
      ∈ (Rect.unit (s := S256x4096) ![0, 0] S256x2048.size inb_S256x4096_S256x2048_0_0).set :=
  (Rect.unit (s := S256x4096) ![0, 0] S256x2048.size inb_S256x4096_S256x2048_0_0).idx_mem (ix2 q b)

/-- The two pieces the scratch is made of, newest first. -/
abbrev highPiece (x1 : Vec F S256x2048 .i32) (x2 x3 : Vec F S256x32 .f32) : View.Piece (Elt F) S256x4096 .bf16 :=
  ⟨Rect.unit (s := S256x4096) ![0, 2048] S256x2048.size inb_S256x4096_S256x2048_0_2048, k0_pay5 x1 x2 x3⟩
abbrev lowPiece (x1 : Vec F S256x2048 .i32) (x2 x3 : Vec F S256x32 .f32) : View.Piece (Elt F) S256x4096 .bf16 :=
  ⟨Rect.unit (s := S256x4096) ![0, 0] S256x2048.size inb_S256x4096_S256x2048_0_0, k0_pay4 x1 x2 x3⟩

theorem scratchAfter_eq (x1 : Vec F S256x2048 .i32) (x2 x3 : Vec F S256x32 .f32) :
    scratchAfter x1 x2 x3 = View.canon [highPiece x1 x2 x3, lowPiece x1 x2 x3] := rfl

/-- Columns [0, 2048) of the scratch hold the low-nibble tile: the later store does not reach them. -/
theorem scratch_low (x1 : Vec F S256x2048 .i32) (x2 x3 : Vec F S256x32 .f32) (q : Fin 256) (b : Fin 2048) (k : Fin 4096) (hk : k.val = b.val) :
    scratchAfter x1 x2 x3 (ix2 q k) = k0_pay4 x1 x2 x3 (ix2 q b) :=
  calc scratchAfter x1 x2 x3 (ix2 q k)
      = View.canon [highPiece x1 x2 x3, lowPiece x1 x2 x3]
          ((Rect.unit (s := S256x4096) ![0, 0] S256x2048.size inb_S256x4096_S256x2048_0_0).emb (ix2 q b)) :=
        congrArg (View.canon [highPiece x1 x2 x3, lowPiece x1 x2 x3]) (low_emb q b k hk).symm
    _ = View.canon [lowPiece x1 x2 x3]
          ((Rect.unit (s := S256x4096) ![0, 0] S256x2048.size inb_S256x4096_S256x2048_0_0).emb (ix2 q b)) :=
        View.canon_cons_of_not_mem (Val := Elt F) (e := .bf16) (highPiece x1 x2 x3) [lowPiece x1 x2 x3] (Finset.disjoint_right.mp halves_disjoint (low_mem q b))
    _ = k0_pay4 x1 x2 x3 (ix2 q b) :=
        View.canon_cons_emb (Val := Elt F) (e := .bf16) (Rect.unit (s := S256x4096) ![0, 0] S256x2048.size inb_S256x4096_S256x2048_0_0) (k0_pay4 x1 x2 x3) [] (ix2 q b)

/-- Columns [2048, 4096) of the scratch hold the high-nibble tile. -/
theorem scratch_high (x1 : Vec F S256x2048 .i32) (x2 x3 : Vec F S256x32 .f32) (q : Fin 256) (b : Fin 2048) (k : Fin 4096) (hk : k.val = 2048 + b.val) :
    scratchAfter x1 x2 x3 (ix2 q k) = k0_pay5 x1 x2 x3 (ix2 q b) :=
  calc scratchAfter x1 x2 x3 (ix2 q k)
      = View.canon [highPiece x1 x2 x3, lowPiece x1 x2 x3]
          ((Rect.unit (s := S256x4096) ![0, 2048] S256x2048.size inb_S256x4096_S256x2048_0_2048).emb (ix2 q b)) :=
        congrArg (View.canon [highPiece x1 x2 x3, lowPiece x1 x2 x3]) (high_emb q b k hk).symm
    _ = k0_pay5 x1 x2 x3 (ix2 q b) :=
        View.canon_cons_emb (Val := Elt F) (e := .bf16) (Rect.unit (s := S256x4096) ![0, 2048] S256x2048.size inb_S256x4096_S256x2048_0_2048) (k0_pay5 x1 x2 x3)
          [lowPiece x1 x2 x3] (ix2 q b)

/-- The scratch at (q, k): the dequantized weight of position k of row q. -/
theorem scratch_apply (x1 : Vec Ideal S256x2048 .i32) (x2 x3 : Vec Ideal S256x32 .f32) (q : Fin 256) (k : Fin 4096) :
    scratchAfter (F := Ideal) x1 x2 x3 (ix2 q k)
      = codeOfPos x1 q k * x2 (ix2 q (grpOfPos k)) - x3 (ix2 q (grpOfPos k)) := by
  have hk := k.isLt
  have hg : grpOfByte (byteOfPos k) = grpOfPos k := rfl
  unfold codeOfPos
  by_cases h : k.val < 2048
  · rw [scratch_low x1 x2 x3 q (byteOfPos k) k (Nat.mod_eq_of_lt h).symm, if_pos h, lowTile_apply, hg]
  · rw [scratch_high x1 x2 x3 q (byteOfPos k) k (by show k.val = 2048 + k.val % 2048; omega), if_neg h, highTile_apply, hg]

/-! ## The block product -/

theorem lhs_dot_0 (i : S1024x256.Idx) (r : dot_S1024x4096_S256x4096_S1024x256_1_1_0_0_n_n.contr.Idx) :
    (dot_S1024x4096_S256x4096_S1024x256_1_1_0_0_n_n.lhsIdx i r 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem lhs_dot_1 (i : S1024x256.Idx) (r : dot_S1024x4096_S256x4096_S1024x256_1_1_0_0_n_n.contr.Idx) :
    (dot_S1024x4096_S256x4096_S1024x256_1_1_0_0_n_n.lhsIdx i r 1).val = (r ⟨0, by decide⟩).val :=
  dot_S1024x4096_S256x4096_S1024x256_1_1_0_0_n_n.lhsIdx_val_of_single rfl i r
theorem rhs_dot_0 (i : S1024x256.Idx) (r : dot_S1024x4096_S256x4096_S1024x256_1_1_0_0_n_n.contr.Idx) :
    (dot_S1024x4096_S256x4096_S1024x256_1_1_0_0_n_n.rhsIdx i r 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem rhs_dot_1 (i : S1024x256.Idx) (r : dot_S1024x4096_S256x4096_S1024x256_1_1_0_0_n_n.contr.Idx) :
    (dot_S1024x4096_S256x4096_S1024x256_1_1_0_0_n_n.rhsIdx i r 1).val = (r ⟨0, by decide⟩).val :=
  dot_S1024x4096_S256x4096_S1024x256_1_1_0_0_n_n.rhsIdx_val_of_single rfl i r

/-- The block product into a zero accumulator at (p, q): the sum over the 4096 positions of row p of the left block
    times row q of the right block. -/
theorem product_apply (xb : FVec Ideal S1024x4096 .bf16) (S : FVec Ideal S256x4096 .bf16) (p : Fin 1024) (q : Fin 256) :
    k0_pay6 (F := Ideal) xb S (ix2 p q) = ∑ k : Fin 4096, xb (ix2 p k) * S (ix2 q k) := by
  unfold k0_pay6
  rw [shapeCast_self]
  simp only [matmul]
  rw [Ideal.matmul_constant_zero_apply, ← Equiv.sum_comp (ValueIdx.contrEquiv1 dot_S1024x4096_S256x4096_S1024x256_1_1_0_0_n_n 4096 rfl rfl).symm]
  refine Finset.sum_congr rfl fun k _ => ?_
  have hk := ValueIdx.contrEquiv1_symm_val dot_S1024x4096_S256x4096_S1024x256_1_1_0_0_n_n 4096 rfl rfl k
  have el : dot_S1024x4096_S256x4096_S1024x256_1_1_0_0_n_n.lhsIdx (ix2 p q) ((ValueIdx.contrEquiv1 dot_S1024x4096_S256x4096_S1024x256_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S1024x4096_S256x4096_S1024x256_1_1_0_0_n_n.rhsIdx (ix2 p q) ((ValueIdx.contrEquiv1 dot_S1024x4096_S256x4096_S1024x256_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-- Entry (p, q) of the output block as a function of the five loaded blocks. -/
def blockAt (xb : Vec Ideal S1024x4096 .bf16) (wb : Vec Ideal S256x2048 .i32) (sb zb : Vec Ideal S256x32 .f32) (bb : Vec Ideal S1x256 .f32)
    (p : Fin 1024) (q : Fin 256) : EReal :=
  (∑ k : Fin 4096, xb (ix2 p k) * (codeOfPos wb q k * sb (ix2 q (grpOfPos k)) - zb (ix2 q (grpOfPos k)))) + bb (ix2 (0 : Fin 1) q)

/-- The block the body leaves, at (p, q). -/
theorem block_apply (xb : Vec Ideal S1024x4096 .bf16) (wb : Vec Ideal S256x2048 .i32) (sb zb : Vec Ideal S256x32 .f32) (bb : Vec Ideal S1x256 .f32)
    (p : Fin 1024) (q : Fin 256) :
    k0_pay1 (F := Ideal) (k0_pay6 xb (scratchAfter wb sb zb)) bb (ix2 p q) = blockAt xb wb sb zb bb p q := by
  unfold k0_pay1 blockAt
  rw [shapeCast_self, shapeCast_self]
  show k0_pay6 xb (scratchAfter wb sb zb) (ix2 p q) + broadcastTo S1024x256 bb broadcasts_S1x256_S1024x256 (ix2 p q) = _
  rw [product_apply, broadcastTo_1b_ab_apply]
  refine congrArg (· + bb (ix2 (0 : Fin 1) q)) (Finset.sum_congr rfl fun k _ => ?_)
  rw [scratch_apply]

end Cert.KernelIdeal.Body

end
-- ==== Proof.HostSide.lean ====
/-
  The operands the host prepares for the call, read at an index.

  * the activations: x · s2 broadcast along rows, then the 4096 columns regrouped as 2048 pairs, the pair axis moved in
    front and flattened again — entry (m, k) is (x · s2)[m, 2 · (k mod 2048) + k / 2048], the column that position k
    of the "low nibbles, then high nibbles" order stands for;
  * the folded offset: zero · scale, entry by entry;
  * the bias as a one-row matrix.
-/
import proofs.«425460_j26645977104586_3_alg».proof.Proof.Gen.KernelIdeal.Frame
import proofs.«425460_j26645977104586_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.ShloMosaic.ValueIdx Idealize.SL.Sem

namespace Cert.KernelIdeal.Host

open Cert.KernelIdeal Cert.KernelIdeal.Gen Cert.NibbleMatmul

variable (m : (ℓ : Loc nD τ sig) → Buf (Elt Ideal) ℓ)

/-- The reordered, scaled activations as a function of x and s2. -/
def reorder (x : FVec Ideal S8192x4096 .f32) (s2 : FVec Ideal S4096 .f32) : FVec Ideal S8192x4096 .bf16 :=
  shapeCast S8192x4096
    (transpose S8192x1x2x2048 [0, 1, 3, 2]
      (shapeCast S8192x1x2048x2
        (truncf .bf16 (mulf x (broadcastInDim S8192x4096 ![0, 1] bcast_S1x4096_S8192x4096_0_1 (broadcastInDim S1x4096 ![1] bcast_S4096_S1x4096_1 s2))) bitsLt_bf16_f32)
        shapeCasts_S8192x4096_S8192x1x2048x2)
      transposes_S8192x1x2048x2_S8192x1x2x2048_0_1_3_2)
    shapeCasts_S8192x1x2x2048_S8192x4096

/-- Entry (M, k) of the reordered activations is (x · s2) at the column position k stands for. -/
theorem reorder_apply (x : FVec Ideal S8192x4096 .f32) (s2 : FVec Ideal S4096 .f32) (M : Fin 8192) (k : Fin 4096) :
    reorder x s2 (ix2 M k) = x (ix2 M (colOfPos k)) * s2 (ix1 (colOfPos k)) := by
  have hk := k.isLt
  have hM := M.isLt
  unfold reorder
  rw [shapeCast_apply _ _ (ix2 M k) (ix4 M (0 : Fin 1) (⟨k.val / 2048, by omega⟩ : Fin 2) (⟨k.val % 2048, Nat.mod_lt _ (by decide)⟩ : Fin 2048)) (by
      rw [Shape.rowMajor_val_four, Shape.rowMajor_val_two]
      show ((M.val * 1 + 0) * 2 + k.val / 2048) * 2048 + k.val % 2048 = M.val * 4096 + k.val
      omega),
    transpose_apply _ _ _ (ix4 M (0 : Fin 1) (⟨k.val / 2048, by omega⟩ : Fin 2) (⟨k.val % 2048, Nat.mod_lt _ (by decide)⟩ : Fin 2048))
      (ix4 M (0 : Fin 1) (⟨k.val % 2048, Nat.mod_lt _ (by decide)⟩ : Fin 2048) (⟨k.val / 2048, by omega⟩ : Fin 2)) (fun b => by
      match b with
      | ⟨0, _⟩ => rfl
      | ⟨1, _⟩ => rfl
      | ⟨2, _⟩ => rfl
      | ⟨3, _⟩ => rfl),
    shapeCast_apply _ _ (ix4 M (0 : Fin 1) (⟨k.val % 2048, Nat.mod_lt _ (by decide)⟩ : Fin 2048) (⟨k.val / 2048, by omega⟩ : Fin 2)) (ix2 M (colOfPos k)) (by
      rw [Shape.rowMajor_val_two, Shape.rowMajor_val_four]
      show M.val * 4096 + (2 * (k.val % 2048) + k.val / 2048) = ((M.val * 1 + 0) * 2048 + k.val % 2048) * 2 + k.val / 2048
      omega)]
  show x (ix2 M (colOfPos k)) * broadcastInDim S8192x4096 ![0, 1] bcast_S1x4096_S8192x4096_0_1 (broadcastInDim S1x4096 ![1] bcast_S4096_S1x4096_1 s2) (ix2 M (colOfPos k)) = _
  rw [broadcastInDim_apply _ bcast_S1x4096_S8192x4096_0_1 _ (ix2 M (colOfPos k)) (ix2 (0 : Fin 1) (colOfPos k)) (fun a => by
      match a with
      | ⟨0, _⟩ => show (0 : Nat) = if (1 : Nat) = 1 then 0 else M.val; rw [if_pos rfl]
      | ⟨1, _⟩ => show (colOfPos k).val = if (4096 : Nat) = 1 then 0 else (colOfPos k).val; rw [if_neg (by decide)]),
    broadcastInDim_apply _ bcast_S4096_S1x4096_1 _ (ix2 (0 : Fin 1) (colOfPos k)) (ix1 (colOfPos k)) (fun a => by
      match a with
      | ⟨0, _⟩ => show (colOfPos k).val = if (4096 : Nat) = 1 then 0 else (colOfPos k).val; rw [if_neg (by decide)])]

/-- The call's first operand is the reordered scaled activations of the arguments. -/
theorem V_act (c : Dev nD) :
    (V m c main_v6 : S8192x4096.Idx → EReal) = reorder (m ((c : Thread nD τ).loc main_arg0)) (m ((c : Thread nD τ).loc main_arg4)) := by
  dsimp only [Gen.V, Gen.hostOps0]
  after_results <;> rfl

/-- The call's fourth operand is zero · scale. -/
theorem V_offset (c : Dev nD) :
    (V m c main_v7 : S11008x32.Idx → EReal) = mulf (F := Ideal) (s := S11008x32) (φ := .f32) (m ((c : Thread nD τ).loc main_arg3)) (m ((c : Thread nD τ).loc main_arg2)) := by
  dsimp only [Gen.V, Gen.hostOps0]
  after_results <;> rfl

/-- The call's fifth operand is the bias as a one-row matrix. -/
theorem V_bias (c : Dev nD) :
    (V m c main_v8 : S1x11008.Idx → EReal) = shapeCast S1x11008 (m ((c : Thread nD τ).loc main_arg5)) shapeCasts_S11008_S1x11008 := by
  dsimp only [Gen.V, Gen.hostOps0]
  after_results <;> rfl

/-- The bias row at (0, N). -/
theorem biasRow_apply (b : FVec Ideal S11008 .f32) (N : Fin 11008) :
    shapeCast S1x11008 b shapeCasts_S11008_S1x11008 (ix2 (0 : Fin 1) N) = b (ix1 N) :=
  shapeCast_apply _ _ _ _ (by
    rw [Shape.rowMajor_val_one, Shape.rowMajor_val_two]
    show N.val = 0 * 11008 + N.val
    omega)

end Cert.KernelIdeal.Host

end
-- ==== Proof.KernelWhole.lean ====
/-
  The kernel's result array as one function of the arguments.

  Grid point t = 43 · i + j works on rows [1024 i, 1024 i + 1024) of the activations and on rows [256 j, 256 j + 256) of
  the packed weights, scales, offsets and bias, and writes block (i, j) of the result.  Reading each loaded block as
  the matching rows of its array turns the block's entry (p, q) into the form K at (1024 i + p, 256 j + q); the 8 × 43
  blocks tile the result, so the whole array is K of the arguments.
-/
import proofs.«425460_j26645977104586_3_alg».proof.Proof.Gen.KernelIdeal.Value
import proofs.«425460_j26645977104586_3_alg».proof.Proof.KernelBlock
import proofs.«425460_j26645977104586_3_alg».proof.Proof.HostSide
import proofs.«425460_j26645977104586_3_alg».proof.Proof.Spec
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Body Cert.KernelIdeal.Host Cert.NibbleMatmul

variable (m : (ℓ : Loc nD τ sig) → Buf (Elt Ideal) ℓ) (ρ : Dev nD → PrngReg)

/-! ## The blocks and arrays at their literal types -/

abbrev xblk (c : Dev nD) (t : Fin cfg0.N) : Vec Ideal S1024x4096 .bf16 := iblk m c 0 t
abbrev wblk (c : Dev nD) (t : Fin cfg0.N) : Vec Ideal S256x2048 .i32 := iblk m c 1 t
abbrev sblk (c : Dev nD) (t : Fin cfg0.N) : Vec Ideal S256x32 .f32 := iblk m c 2 t
abbrev zblk (c : Dev nD) (t : Fin cfg0.N) : Vec Ideal S256x32 .f32 := iblk m c 3 t
abbrev bblk (c : Dev nD) (t : Fin cfg0.N) : Vec Ideal S1x256 .f32 := iblk m c 4 t

abbrev xarr (c : Dev nD) : Vec Ideal S8192x4096 .bf16 := V m c main_v6
abbrev warr (c : Dev nD) : Vec Ideal S11008x2048 .i32 := V m c main_arg1
abbrev sarr (c : Dev nD) : Vec Ideal S11008x32 .f32 := V m c main_arg2
abbrev zarr (c : Dev nD) : Vec Ideal S11008x32 .f32 := V m c main_v7
abbrev barr (c : Dev nD) : Vec Ideal S1x11008 .f32 := V m c main_v8

theorem xarr_eq (c : Dev nD) : xarr m c = reorder (m ((c : Thread nD τ).loc main_arg0)) (m ((c : Thread nD τ).loc main_arg4)) := V_act m c
theorem warr_eq (c : Dev nD) : warr m c = m ((c : Thread nD τ).loc main_arg1) := V_main_arg1 m c
theorem sarr_eq (c : Dev nD) : sarr m c = m ((c : Thread nD τ).loc main_arg2) := V_main_arg2 m c
theorem zarr_eq (c : Dev nD) : zarr m c = mulf (F := Ideal) (s := S11008x32) (φ := .f32) (m ((c : Thread nD τ).loc main_arg3)) (m ((c : Thread nD τ).loc main_arg2)) := V_offset m c
theorem barr_eq (c : Dev nD) : barr m c = shapeCast S1x11008 (m ((c : Thread nD τ).loc main_arg5)) shapeCasts_S11008_S1x11008 := V_bias m c

/-! ## Which block each window holds at point t -/

theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = t.val % 43 ∧ win0_3.index t (1 : Fin 2) = 0
    ∧ win0_4.index t (0 : Fin 2) = 0 ∧ win0_4.index t (1 : Fin 2) = t.val % 43
    ∧ win0_5.index t (0 : Fin 2) = t.val / 43 ∧ win0_5.index t (1 : Fin 2) = t.val % 43 :=
  (by decide +kernel : ∀ t : Fin grid0.N, _)

theorem t_lt (t : Fin cfg0.N) : t.val < 344 := lt_of_lt_of_eq t.isLt N_0

/-- The array row that row p of point t's activation and result blocks is. -/
def rowOf (t : Fin cfg0.N) (p : Fin 1024) : Fin 8192 := ⟨t.val / 43 * 1024 + p.val, by have := t_lt t; have := p.isLt; omega⟩
/-- The array row (of weights, scales, offsets; the result's column) that row q of point t's blocks is. -/
def colOf (t : Fin cfg0.N) (q : Fin 256) : Fin 11008 := ⟨t.val % 43 * 256 + q.val, by have := q.isLt; have := Nat.mod_lt t.val (show 0 < 43 by decide); omega⟩

theorem xblk_apply (c : Dev nD) (t : Fin cfg0.N) (p : Fin 1024) (k : Fin 4096) :
    xblk m c t (ix2 p k) = xarr m c (ix2 (rowOf t p) k) := by
  obtain ⟨e0, e1, -⟩ := idx_facts t
  show V m c main_v6 (((cfg0.win 0).blk t).view.emb (ix2 p k)) = V m c main_v6 (ix2 (rowOf t p) k)
  refine congrArg (V m c main_v6) (funext fun a => Fin.ext ?_)
  match a with
  | ⟨0, _⟩ => show win0_0.index t (0 : Fin 2) * 1024 + 1 * p.val = t.val / 43 * 1024 + p.val; omega
  | ⟨1, _⟩ => show win0_0.index t (1 : Fin 2) * 4096 + 1 * k.val = k.val; omega

theorem wblk_apply (c : Dev nD) (t : Fin cfg0.N) (q : Fin 256) (b : Fin 2048) :
    wblk m c t (ix2 q b) = warr m c (ix2 (colOf t q) b) := by
  obtain ⟨-, -, e0, e1, -⟩ := idx_facts t
  show V m c main_arg1 (((cfg0.win 1).blk t).view.emb (ix2 q b)) = V m c main_arg1 (ix2 (colOf t q) b)
  refine congrArg (V m c main_arg1) (funext fun a => Fin.ext ?_)
  match a with
  | ⟨0, _⟩ => show win0_1.index t (0 : Fin 2) * 256 + 1 * q.val = t.val % 43 * 256 + q.val; omega
  | ⟨1, _⟩ => show win0_1.index t (1 : Fin 2) * 2048 + 1 * b.val = b.val; omega

theorem sblk_apply (c : Dev nD) (t : Fin cfg0.N) (q : Fin 256) (g : Fin 32) :
    sblk m c t (ix2 q g) = sarr m c (ix2 (colOf t q) g) := by
  obtain ⟨-, -, -, -, e0, e1, -⟩ := idx_facts t
  show V m c main_arg2 (((cfg0.win 2).blk t).view.emb (ix2 q g)) = V m c main_arg2 (ix2 (colOf t q) g)
  refine congrArg (V m c main_arg2) (funext fun a => Fin.ext ?_)
  match a with
  | ⟨0, _⟩ => show win0_2.index t (0 : Fin 2) * 256 + 1 * q.val = t.val % 43 * 256 + q.val; omega
  | ⟨1, _⟩ => show win0_2.index t (1 : Fin 2) * 32 + 1 * g.val = g.val; omega

theorem zblk_apply (c : Dev nD) (t : Fin cfg0.N) (q : Fin 256) (g : Fin 32) :
    zblk m c t (ix2 q g) = zarr m c (ix2 (colOf t q) g) := by
  obtain ⟨-, -, -, -, -, -, e0, e1, -⟩ := idx_facts t
  show V m c main_v7 (((cfg0.win 3).blk t).view.emb (ix2 q g)) = V m c main_v7 (ix2 (colOf t q) g)
  refine congrArg (V m c main_v7) (funext fun a => Fin.ext ?_)
  match a with
  | ⟨0, _⟩ => show win0_3.index t (0 : Fin 2) * 256 + 1 * q.val = t.val % 43 * 256 + q.val; omega
  | ⟨1, _⟩ => show win0_3.index t (1 : Fin 2) * 32 + 1 * g.val = g.val; omega

theorem bblk_apply (c : Dev nD) (t : Fin cfg0.N) (q : Fin 256) :
    bblk m c t (ix2 (0 : Fin 1) q) = barr m c (ix2 (0 : Fin 1) (colOf t q)) := by
  obtain ⟨-, -, -, -, -, -, -, -, e0, e1, -⟩ := idx_facts t
  show V m c main_v8 (((cfg0.win 4).blk t).view.emb (ix2 (0 : Fin 1) q)) = V m c main_v8 (ix2 (0 : Fin 1) (colOf t q))
  refine congrArg (V m c main_v8) (funext fun a => Fin.ext ?_)
  match a with
  | ⟨0, _⟩ => show win0_4.index t (0 : Fin 2) * 1 + 1 * 0 = 0; omega
  | ⟨1, _⟩ => show win0_4.index t (1 : Fin 2) * 256 + 1 * q.val = t.val % 43 * 256 + q.val; omega

/-! ## A point's block is the matching block of K -/

/-- The result array the kernel is claimed to end with. -/
abbrev Karr (c : Dev nD) : S8192x11008.Idx → EReal :=
  K (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem block_eq (c : Dev nD) (t : Fin cfg0.N) (p : Fin 1024) (q : Fin 256) :
    blockAt (xblk m c t) (wblk m c t) (sblk m c t) (zblk m c t) (bblk m c t) p q
      = Kat (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (rowOf t p) (colOf t q) := by
  unfold blockAt Kat
  rw [bblk_apply, barr_eq, biasRow_apply]
  refine congrArg (· + _) (Finset.sum_congr rfl fun k _ => ?_)
  have hcode : codeOfPos (wblk m c t) q k = codeOfPos (m ((c : Thread nD τ).loc main_arg1) : IVec S11008x2048 32) (colOf t q) k := by
    unfold codeOfPos
    rw [wblk_apply, warr_eq]
  rw [xblk_apply, xarr_eq, reorder_apply, hcode, sblk_apply, sarr_eq, zblk_apply, zarr_eq]
  rfl

/-- What point t writes back is its block of K. -/
theorem flushed_eq (c : Dev nD) (t : Fin cfg0.N) :
    (dats m 0 c).flushed 5 t = ((cfg0.win 5).blk t).view.read (Elt Ideal) (Karr m c) := by
  rw [Value.flushed5_A m c t, out_eq]
  obtain ⟨-, -, -, -, -, -, -, -, -, -, e0, e1⟩ := idx_facts t
  funext j
  obtain ⟨p, q, rfl⟩ : ∃ (p : Fin 1024) (q : Fin 256), j = ix2 p q := ⟨j 0, j 1, eq_ix2 j⟩
  show k0_pay1 (F := Ideal) (k0_pay6 (xblk m c t) (scratchAfter (wblk m c t) (sblk m c t) (zblk m c t))) (bblk m c t) (ix2 p q)
    = Karr m c (((cfg0.win 5).blk t).view.emb (ix2 p q))
  have he : ((cfg0.win 5).blk t).view.emb (ix2 p q) = ix2 (rowOf t p) (colOf t q) := funext fun a => Fin.ext (by
    match a with
    | ⟨0, _⟩ => show win0_5.index t (0 : Fin 2) * 1024 + 1 * p.val = t.val / 43 * 1024 + p.val; omega
    | ⟨1, _⟩ => show win0_5.index t (1 : Fin 2) * 256 + 1 * q.val = t.val % 43 * 256 + q.val; omega)
  rw [he, block_apply, block_eq]
  rfl

/-! ## The blocks tile the result -/

theorem mem_blk (t : Fin cfg0.N) (i : S8192x11008.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v9).slice (win0_5.rect t)).set ↔ _
  rw [View.set_slice_whole, Rect.mem_set_unit]
  exact Iff.rfl

theorem cover (i : S8192x11008.Idx) : ∃ t : Fin cfg0.N, (cfg0.win 5).flush t = true ∧ i ∈ ((cfg0.win 5).blk t).view.set := by
  have h0 : (i 0).val < 8192 := (i 0).isLt
  have h1 : (i 1).val < 11008 := (i 1).isLt
  let t : Fin cfg0.N := ⟨(i 0).val / 1024 * 43 + (i 1).val / 256, by rw [show cfg0.N = 344 from N_0]; omega⟩
  have ht : t.val = (i 0).val / 1024 * 43 + (i 1).val / 256 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- The result array after the run. -/
theorem final (c : Dev nD) : (dats m 0 c).arrAt 5 cfg0.N = Karr m c :=
  (dats m 0 c).arrAt_eq_of_cover 5 (Karr m c) (fun t _ => flushed_eq m c t) (cover)

/-- The kernel's run: it ends with the result at K of the arguments and the arguments unchanged. -/
theorem run : θ_run defs (onTc (τ := τ) (main (F := Ideal))) ⟨m, fun _ => 0, ρ⟩ fun r => ∀ c : Dev nD,
      r.2.mem ((c : Thread nD τ).loc main_v9) = Karr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.lean ====
/-
  An int4 weight-only quantized linear layer: out = (x · s2) · Wᵀ + bias with W[n, k] = (code[n, k] − zero[n, k / 128]) ·
  scale[n, k / 128], the 4-bit codes packed two to a word (low nibble = even column, high nibble = odd column).

  The kernel and the reference compute the same array over the extended reals when scale and zero are finite:

  * the reference unpacks, dequantizes column by column and contracts the 4096 columns in their natural order
    (the form G of Spec.lean, read off the reference's operations in RefValue.lean);
  * the kernel receives the activations with the even columns first and the odd columns after, and zero · scale
    precomputed; per grid point it dequantizes a 256-row weight block as "all low nibbles, then all high nibbles" with
    code · scale − zero · scale, multiplies a 1024-row activation block by it and adds the bias (KernelPiece.lean,
    KernelBlock.lean); the 8 × 43 blocks tile the result, which is therefore the form K of the arguments
    (HostSide.lean, KernelWhole.lean);
  * K = G: the two orders of the columns differ by a permutation of the contraction index, and
    (c − z) · s = c · s − z · s for real z and s, which is where the precondition (finite inputs, Finite.lean) enters.

  The three frames are the generated ones (the reference's is its run with the result dropped); the idealized kernel is the
  kernel's own text read over the extended reals, so the preservation claim is trivial.
-/
import proofs.«425460_j26645977104586_3_alg».proof.Defs
import proofs.«425460_j26645977104586_3_alg».proof.Proof.Gen.Kernel
import proofs.«425460_j26645977104586_3_alg».proof.Proof.Gen.Kernel.Skeleton
import proofs.«425460_j26645977104586_3_alg».proof.Proof.Gen.Kernel.Launch
import proofs.«425460_j26645977104586_3_alg».proof.Proof.Gen.Kernel.Points
import proofs.«425460_j26645977104586_3_alg».proof.Proof.Gen.Kernel.Frame
import proofs.«425460_j26645977104586_3_alg».proof.Proof.Gen.KernelIdeal
import proofs.«425460_j26645977104586_3_alg».proof.Proof.Gen.KernelIdeal.Skeleton
import proofs.«425460_j26645977104586_3_alg».proof.Proof.Gen.KernelIdeal.Launch
import proofs.«425460_j26645977104586_3_alg».proof.Proof.Gen.KernelIdeal.Points
import proofs.«425460_j26645977104586_3_alg».proof.Proof.Gen.KernelIdeal.Frame
import proofs.«425460_j26645977104586_3_alg».proof.Proof.Gen.ReferenceIdeal
import proofs.«425460_j26645977104586_3_alg».proof.Proof.Gen.Pre_finite_inputs
import proofs.«425460_j26645977104586_3_alg».proof.Proof.Gen.KernelIdeal.Value
import proofs.«425460_j26645977104586_3_alg».proof.Proof.Gen.ReferenceIdeal.Run
import proofs.«425460_j26645977104586_3_alg».proof.Proof.Gen.ReferenceIdeal.Read
import proofs.«425460_j26645977104586_3_alg».proof.Proof.Spec
import proofs.«425460_j26645977104586_3_alg».proof.Proof.Finite
import proofs.«425460_j26645977104586_3_alg».proof.Proof.RefValue
import proofs.«425460_j26645977104586_3_alg».proof.Proof.KernelWhole
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : @Cert.frame_Kernel Cert.Kernel.Gen.facts Cert.Pre_finite_inputs.Gen.facts :=
  fun m ρ _ => Cert.Kernel.Gen.frame m ρ

/-- So does the kernel read over the extended reals. -/
theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments the kernel ends with K of them and the reference with G of them; under the
    precondition scale and zero are real, so K = G. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Whole.Karr m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq (F := Ideal) _ _ _ _ _ _).trans ?_
  rw [Cert.ReferenceIdeal.RefValue.result_eq]
  obtain ⟨h0, h1, h2, h3, h4, h5⟩ := hagree c
  rw [h0, h1, h2, h3, h4, h5]
  haveI := Cert.Pre_finite_inputs.Gen.facts
  obtain ⟨hsc, hze⟩ := Cert.Pre_finite_inputs.Finite.real_entries _ _ _ _ _ _ (hpre c)
  exact (Cert.NibbleMatmul.K_eq_G _ _ _ _ _ _ hsc hze).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
